-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg1 : IVec S500000 32) (main_arg2 : IVec S500000 32) (main_v33 : IVec S_ 1) : IVec S_ 1 :=
  let main_c_12 : IVec S_ 32 := constantI S_ 32 4294867296#32
  let main_v34 : IVec S500000 32 := broadcastInDim S500000 ![] bcast_S_S500000 main_c_12
  let main_v35 : IVec S500000 1 := cmpi .sge main_arg1 main_v34
  let main_c_13 : IVec S_ 32 := constantI S_ 32 100000#32
  let main_v36 : IVec S500000 32 := broadcastInDim S500000 ![] bcast_S_S500000 main_c_13
  let main_v37 : IVec S500000 1 := cmpi .slt main_arg1 main_v36
  let main_v38 : IVec S500000 1 := andi main_v35 main_v37
  let main_c_14 : IVec S_ 1 := constantI S_ 1 1#1
  let main_v39 : IVec S_ 1 := (fun x v => Host.reduce IntOp.andi x v reducesTo_S500000_S_d0 h_S_) main_v38 main_c_14
  let main_v40 : IVec S_ 1 := andi main_v33 main_v39
  let main_c_15 : IVec S_ 32 := constantI S_ 32 4294867296#32
  let main_v41 : IVec S500000 32 := broadcastInDim S500000 ![] bcast_S_S500000 main_c_15
  let main_v42 : IVec S500000 1 := cmpi .sge main_arg2 main_v41
  let main_c_16 : IVec S_ 32 := constantI S_ 32 100000#32
  let main_v43 : IVec S500000 32 := broadcastInDim S500000 ![] bcast_S_S500000 main_c_16
  let main_v44 : IVec S500000 1 := cmpi .slt main_arg2 main_v43
  let main_v45 : IVec S500000 1 := andi main_v42 main_v44
  let main_c_17 : IVec S_ 1 := constantI S_ 1 1#1
  let main_v46 : IVec S_ 1 := (fun x v => Host.reduce IntOp.andi x v reducesTo_S500000_S_d0 h_S_) main_v45 main_c_17
  let main_v47 : IVec S_ 1 := andi main_v40 main_v46
  main_v47

def fn_part1 {F : FTy → Type} [FloatOps F] (main_arg1 : IVec S500000 32) (main_arg2 : IVec S500000 32) (main_arg6 : FVec F S128 .f32) (main_arg7 : FVec F S1x128 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S100000x128 .f32) (main_arg1 : IVec S500000 32) (main_arg2 : IVec S500000 32) (main_arg3 : FVec F S128x256 .f32) (main_arg4 : FVec F S128 .f32) (main_arg5 : FVec F S128x128 .f32) (main_arg6 : FVec F S128 .f32) (main_arg7 : FVec F S1x128 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x128 : Shape := ⟨2, ![1000000, 128]⟩
abbrev S2x500000x128 : Shape := ⟨3, ![2, 500000, 128]⟩
abbrev S1x500000x128 : Shape := ⟨3, ![1, 500000, 128]⟩
abbrev S500000x128 : Shape := ⟨2, ![500000, 128]⟩
abbrev S256x128 : Shape := ⟨2, ![256, 128]⟩
abbrev S128x1 : Shape := ⟨2, ![128, 1]⟩
abbrev S500000x1 : Shape := ⟨2, ![500000, 1]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 45
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1, .i32⟩
  | .hbm, ⟨19, _⟩ => ⟨S_, .i32⟩
  | .hbm, ⟨20, _⟩ => ⟨S1000000x1, .i32⟩
  | .hbm, ⟨21, _⟩ => ⟨S1000000x1, .i1⟩
  | .hbm, ⟨22, _⟩ => ⟨S1x1, .i32⟩
  | .hbm, ⟨23, _⟩ => ⟨S1000000x1, .i32⟩
  | .hbm, ⟨24, _⟩ => ⟨S1000000x1, .i1⟩
  | .hbm, ⟨25, _⟩ => ⟨S1000000x1, .i1⟩
  | .hbm, ⟨26, _⟩ => ⟨S_, .i1⟩
  | .hbm, ⟨27, _⟩ => ⟨S1000000, .i1⟩
  | .hbm, ⟨28, _⟩ => ⟨S1000000x128, .f32⟩
  | .hbm, ⟨29, _⟩ => ⟨S1000000x128, .i1⟩
  | .hbm, ⟨30, _⟩ => ⟨S_, .f32⟩
  | .hbm, ⟨31, _⟩ => ⟨S1000000x128, .f32⟩
  | .hbm, ⟨32, _⟩ => ⟨S1000000x128, .f32⟩
  | .hbm, ⟨33, _⟩ => ⟨S2x500000x128, .f32⟩
  | .hbm, ⟨34, _⟩ => ⟨S1x500000x128, .f32⟩
  | .hbm, ⟨35, _⟩ => ⟨S500000x128, .f32⟩
  | .hbm, ⟨36, _⟩ => ⟨S1x500000x128, .f32⟩
  | .hbm, ⟨37, _⟩ => ⟨S500000x128, .f32⟩
  | .hbm, ⟨38, _⟩ => ⟨S256x128, .f32⟩
  | .hbm, ⟨39, _⟩ => ⟨S128x128, .f32⟩
  | .hbm, ⟨40, _⟩ => ⟨S128x1, .f32⟩
  | .hbm, ⟨41, _⟩ => ⟨S1x128, .f32⟩
  | .hbm, ⟨42, _⟩ => ⟨S1x128, .f32⟩
  | .hbm, ⟨43, _⟩ => ⟨S1x1, .f32⟩
  | .hbm, ⟨44, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S500000_S500000_S1000000_d0 : Shape.Concatenates [S500000, S500000] S1000000 0
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  shapeCasts_S1000000x128_S2x500000x128 : S1000000x128.ShapeCasts S2x500000x128
  slices_S2x500000x128_S1x500000x128_0_0_0 : S2x500000x128.Slices ![0, 0, 0] S1x500000x128
  shapeCasts_S1x500000x128_S500000x128 : S1x500000x128.ShapeCasts S500000x128
  slices_S2x500000x128_S1x500000x128_1_0_0 : S2x500000x128.Slices ![1, 0, 0] S1x500000x128
  transposes_S128x256_S256x128_1_0 : S128x256.Transposes [1, 0] S256x128
  transposes_S128x128_S128x128_1_0 : S128x128.Transposes [1, 0] S128x128
  transposes_S1x128_S128x1_1_0 : S1x128.Transposes [1, 0] S128x1
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1000000x1_S1000000x128_1_0_n_n_0_1_1128_wf : GatherDims.WF S100000x128 S1000000x1 S1000000x128 [1] [0] [] [0] [] 1 ![1, 128]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S500000x1.size a
  hwx0_8 : ∀ i : grid0.Coords, EltTy.bits .f32 = 32 ∨ (Rect.block (s := S500000x1) S5000x1.size (cc0_transform_8 i) (hinb0_8 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S5000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S500000x1 : Shape := ⟨2, ![500000, 1]⟩
abbrev S500000x128 : Shape := ⟨2, ![500000, 128]⟩
abbrev S128x1 : Shape := ⟨2, ![128, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S500000x128, .f32⟩
  | .hbm, ⟨31, _⟩ => ⟨S128x128, .f32⟩
  | .hbm, ⟨32, _⟩ => ⟨S500000x128, .f32⟩
  | .hbm, ⟨33, _⟩ => ⟨S500000x128, .f32⟩
  | .hbm, ⟨34, _⟩ => ⟨S1x128, .f32⟩
  | .hbm, ⟨35, _⟩ => ⟨S500000x128, .f32⟩
  | .hbm, ⟨36, _⟩ => ⟨S500000x128, .f32⟩
  | .hbm, ⟨37, _⟩ => ⟨S_, .f32⟩
  | .hbm, ⟨38, _⟩ => ⟨S500000x128, .f32⟩
  | .hbm, ⟨39, _⟩ => ⟨S500000x128, .f32⟩
  | .hbm, ⟨40, _⟩ => ⟨S128x128, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S500000x128, .f32⟩
  | .hbm, ⟨47, _⟩ => ⟨S500000x128, .f32⟩
  | .hbm, ⟨48, _⟩ => ⟨S128x1, .f32⟩
  | .hbm, ⟨49, _⟩ => ⟨S500000x1, .f32⟩
  | .hbm, ⟨50, _⟩ => ⟨S1x1, .f32⟩
  | .hbm, ⟨51, _⟩ => ⟨S500000x1, .f32⟩
  | .hbm, ⟨52, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  The edge scorer as mathematics, over the extended reals.

  An edge with end rows `a` (source node) and `b` (destination node), each a row of 128 features, is scored by a
  three-layer perceptron: the first layer reads the two rows side by side (256 inputs) and is written here as the sum
  over the source half plus the sum over the destination half of one weight row, then bias and a maximum with zero; the
  second layer is 128 → 128 with bias and a maximum with zero; the last is 128 → 1 with bias. A node index is taken
  as numpy takes it: a negative index has the table's length added, and the result is clamped into the table, as a
  gather clamps. Nothing here mentions a program: both programs are shown to compute `mlp` of the same rows.
-/
import Idealize.ShloMosaic.PureOps.Ideal
import Idealize.ShloMosaic.Lib.ValueIdx

noncomputable section

open scoped BigOperators

namespace Cert.EdgeMlp

open Idealize.ShloMosaic Idealize.ShloMosaic.ValueIdx

/-- The zero both programs take the maximum with: the extended real the all-zero f32 word encodes. -/
abbrev zeroF : EReal := Ideal.ofBits .f32 0x00000000#32

/-- numpy's reading of an index word into a table of 100000 rows: a negative word has 100000 added. -/
def wrapIdx (w : BitVec 32) : BitVec 32 :=
  Scalar.select (IntOp.cmpi .slt w 0#32) (IntOp.addi w 100000#32) w

/-- The table row an index word names: wrapped, read signed, clamped into [0, 99999]. -/
def nodeRow (w : BitVec 32) : Fin 100000 := ⟨min (wrapIdx w).toInt.toNat (100000 - 1), by omega⟩

/-- Column `k` of the source half of a 256-wide weight row. -/
abbrev lo (k : Fin 128) : Fin 256 := ⟨k.val, by omega⟩
/-- Column `k` of the destination half. -/
abbrev hi (k : Fin 128) : Fin 256 := ⟨128 + k.val, by omega⟩

/-- One unit of the first layer: the source row against the first half of the weight row, plus the destination row
    against the second half, plus the bias, cut off below at zero. -/
def hidden1 (a b : Fin 128 → EReal) (w : Fin 256 → EReal) (bias : EReal) : EReal :=
  max (((∑ k : Fin 128, a k * w (lo k)) + (∑ k : Fin 128, b k * w (hi k))) + bias) zeroF

/-- One unit of the second layer. -/
def hidden2 (x w : Fin 128 → EReal) (bias : EReal) : EReal :=
  max ((∑ k : Fin 128, x k * w k) + bias) zeroF

/-- The output unit. -/
def outUnit (x w : Fin 128 → EReal) (bias : EReal) : EReal :=
  (∑ k : Fin 128, x k * w k) + bias

/-- The score of an edge with end rows `a`, `b` under the weights `W1` (128 × 256), `W2` (128 × 128), `W3` (1 × 128). -/
def mlp (a b : Fin 128 → EReal) (W1 : Fin 128 → Fin 256 → EReal) (b1 : Fin 128 → EReal)
    (W2 : Fin 128 → Fin 128 → EReal) (b2 : Fin 128 → EReal) (W3 : Fin 128 → EReal) (b3 : EReal) : EReal :=
  outUnit (fun j => hidden2 (fun k => hidden1 a b (W1 k) (b1 k)) (W2 j) (b2 j)) W3 b3

/-- A sum over 256 columns is the sum over the first 128 plus the sum over the last 128: addition of extended reals
    is commutative and associative, so no finiteness is needed. -/
theorem sum_halves {M : Type*} [AddCommMonoid M] (f : Fin 256 → M) :
    ∑ q : Fin 256, f q = (∑ k : Fin 128, f (lo k)) + ∑ k : Fin 128, f (hi k) :=
  Fin.sum_univ_add (a := 128) (b := 128) f

/-- The first layer written over the 256 columns at once — the two rows laid side by side as `x` — is `hidden1`. -/
theorem hidden1_of_concat (a b : Fin 128 → EReal) (x w : Fin 256 → EReal) (bias : EReal)
    (hl : ∀ k, x (lo k) = a k) (hr : ∀ k, x (hi k) = b k) :
    max ((∑ q : Fin 256, x q * w q) + bias) zeroF = hidden1 a b w bias := by
  unfold hidden1
  rw [sum_halves]
  simp only [hl, hr]

/-- The whole table of scores: edge `e`'s score from the node table `h`, the two index vectors and the weights. -/
def scores (h : (⟨2, ![100000, 128]⟩ : Shape).Idx → EReal) (src dst : IVec ⟨1, ![500000]⟩ 32)
    (W1 : (⟨2, ![128, 256]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![1, 128]⟩ : Shape).Idx → EReal) (b3 : (⟨1, ![1]⟩ : Shape).Idx → EReal) :
    (⟨2, ![500000, 1]⟩ : Shape).Idx → EReal := fun i =>
  mlp (fun k => h (ix2 (nodeRow (src (ix1 (i 0)))) k)) (fun k => h (ix2 (nodeRow (dst (ix1 (i 0)))) k))
    (fun j q => W1 (ix2 j q)) (fun j => b1 (ix1 j)) (fun j k => W2 (ix2 j k)) (fun j => b2 (ix1 j))
    (fun k => W3 (ix2 0 k)) (b3 (ix1 0))

end Cert.EdgeMlp

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.RefValue.lean ====
/-
  The reference program's result is the table of scores `Cert.EdgeMlp.scores`.

  The reference gathers the source rows and the destination rows of the node table (each index wrapped as numpy wraps
  it, each gather clamping), multiplies the source rows by the transposed first half of `W1` and the destination rows
  by the transposed second half, adds the two products and the bias, cuts off at zero, and goes on through the second
  and third layers. Read one element at a time, that is `mlp` of the two gathered rows.
-/
import proofs.«404299_j76605036691741_3_alg».proof.Proof.Gen.ReferenceIdeal.Read
import proofs.«404299_j76605036691741_3_alg».proof.Proof.Spec
import proofs.«404299_j76605036691741_3_alg».proof.Proof.LibTakeRows

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EdgeMlp

variable (x0 : (⟨S100000x128, .f32⟩ : BufTy).Contents (Elt Ideal))
  (x1 x2 : (⟨S500000, .i32⟩ : BufTy).Contents (Elt Ideal))
  (x3 : (⟨S128x256, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S1x128, .f32⟩ : BufTy).Contents (Elt Ideal)) (x8 : (⟨S1, .f32⟩ : BufTy).Contents (Elt Ideal))

/-- Row `e` of the index column is entry `e` of the index vector. -/
theorem idx5_eq (e : Fin 500000) : idx_main_v5 (ix2 e 0) = ix1 e := by
  funext a; match a with | ⟨0, _⟩ => rfl
theorem idx12_eq (e : Fin 500000) : idx_main_v12 (ix2 e 0) = ix1 e := by
  funext a; match a with | ⟨0, _⟩ => rfl

/-- The start index the source gather reads for edge `e` is the wrapped source index. -/
theorem src_start (e : Fin 500000) : val_main_v5 (F := Ideal) x1 (ix2 e 0) = wrapIdx (x1 (ix1 e)) := by
  rw [val_main_v5_apply, val_main_v4_apply, val_main_v1_apply, val_main_v3_apply, val_main_v0_apply, val_main_v2_apply,
    val_main_c_apply, val_main_c_0_apply, idx5_eq]
  rfl

/-- Likewise the destination gather's. -/
theorem dst_start (e : Fin 500000) : val_main_v12 (F := Ideal) x2 (ix2 e 0) = wrapIdx (x2 (ix1 e)) := by
  rw [val_main_v12_apply, val_main_v11_apply, val_main_v8_apply, val_main_v10_apply, val_main_v7_apply, val_main_v9_apply,
    val_main_c_1_apply, val_main_c_2_apply, idx12_eq]
  rfl

/-- The gathered source row of edge `e`. -/
theorem src_rows (e : Fin 500000) (k : Fin 128) :
    val_main_v6 (F := Ideal) x0 x1 (ix2 e k) = x0 (ix2 (nodeRow (x1 (ix1 e))) k) := by
  unfold val_main_v6
  rw [Cert.Lib.gather_rows_apply (by decide) _ rfl rfl rfl rfl rfl rfl rfl]
  refine congrArg x0 (congrArg (fun r => ix2 r k) (Fin.ext ?_))
  show min (val_main_v5 (F := Ideal) x1 (ix2 e 0)).toInt.toNat (100000 - 1) = min (wrapIdx (x1 (ix1 e))).toInt.toNat (100000 - 1)
  rw [src_start]

/-- The gathered destination row of edge `e`. -/
theorem dst_rows (e : Fin 500000) (k : Fin 128) :
    val_main_v13 (F := Ideal) x0 x2 (ix2 e k) = x0 (ix2 (nodeRow (x2 (ix1 e))) k) := by
  unfold val_main_v13
  rw [Cert.Lib.gather_rows_apply (by decide) _ rfl rfl rfl rfl rfl rfl rfl]
  refine congrArg x0 (congrArg (fun r => ix2 r k) (Fin.ext ?_))
  show min (val_main_v12 (F := Ideal) x2 (ix2 e 0)).toInt.toNat (100000 - 1) = min (wrapIdx (x2 (ix1 e))).toInt.toNat (100000 - 1)
  rw [dst_start]

/-! ## The three layers, one element each -/

theorem l17 (e : Fin 500000) (j k : Fin 128) : lidx_main_v17 (ix2 e j) k = ix2 e k := by
  funext a; match a with | ⟨0, _⟩ => rfl | ⟨1, _⟩ => rfl
theorem l19 (e : Fin 500000) (j k : Fin 128) : lidx_main_v19 (ix2 e j) k = ix2 e k := by
  funext a; match a with | ⟨0, _⟩ => rfl | ⟨1, _⟩ => rfl
/-- The first product's weight: the transposed first half of `W1` at (k, j) is `W1` at (j, k). -/
theorem w17 (e : Fin 500000) (j k : Fin 128) : idx_main_v14 (idx_main_v16 (ridx_main_v17 (ix2 e j) k)) = ix2 j (lo k) := by
  funext a; match a with | ⟨0, _⟩ => rfl | ⟨1, _⟩ => rfl
/-- The second product's weight: the transposed second half at (k, j) is `W1` at (j, 128 + k). -/
theorem w19 (e : Fin 500000) (j k : Fin 128) : idx_main_v15 (idx_main_v18 (ridx_main_v19 (ix2 e j) k)) = ix2 j (hi k) := by
  funext a; match a with | ⟨0, _⟩ => rfl | ⟨1, _⟩ => rfl
theorem b22 (e : Fin 500000) (j : Fin 128) : idx_main_v21 (idx_main_v22 (ix2 e j)) = ix1 j := by
  funext a; match a with | ⟨0, _⟩ => rfl

/-- Unit `j` of the first layer for edge `e`. -/
theorem layer1 (e : Fin 500000) (j : Fin 128) :
    val_main_v24 (F := Ideal) x0 x1 x2 x3 x4 (ix2 e j)
      = hidden1 (fun k => x0 (ix2 (nodeRow (x1 (ix1 e))) k)) (fun k => x0 (ix2 (nodeRow (x2 (ix1 e))) k))
          (fun q => x3 (ix2 j q)) (x4 (ix1 j)) := by
  rw [val_main_v24_apply, val_main_v23_apply, val_main_v20_apply, val_main_v17_apply, val_main_v19_apply,
    val_main_v22_apply, val_main_v21_apply, val_main_call0_v0_apply, val_main_call0_cst_apply]
  simp only [l17, l19, src_rows, dst_rows, val_main_v16_apply, val_main_v14_apply, val_main_v18_apply,
    val_main_v15_apply, w17, w19, b22]
  rfl

theorem l26 (e : Fin 500000) (j k : Fin 128) : lidx_main_v26 (ix2 e j) k = ix2 e k := by
  funext a; match a with | ⟨0, _⟩ => rfl | ⟨1, _⟩ => rfl
theorem w26 (e : Fin 500000) (j k : Fin 128) : idx_main_v25 (ridx_main_v26 (ix2 e j) k) = ix2 j k := by
  funext a; match a with | ⟨0, _⟩ => rfl | ⟨1, _⟩ => rfl
theorem b28 (e : Fin 500000) (j : Fin 128) : idx_main_v27 (idx_main_v28 (ix2 e j)) = ix1 j := by
  funext a; match a with | ⟨0, _⟩ => rfl

/-- Unit `j` of the second layer for edge `e`, over the first layer's units. -/
theorem layer2 (e : Fin 500000) (j : Fin 128) :
    val_main_v30 (F := Ideal) x0 x1 x2 x3 x4 x5 x6 (ix2 e j)
      = hidden2 (fun k => val_main_v24 (F := Ideal) x0 x1 x2 x3 x4 (ix2 e k)) (fun k => x5 (ix2 j k)) (x6 (ix1 j)) := by
  rw [val_main_v30_apply, val_main_v29_apply, val_main_v26_apply, val_main_v28_apply, val_main_v27_apply,
    val_main_call1_v0_apply, val_main_call1_cst_apply]
  simp only [l26, val_main_v25_apply, w26, b28]
  rfl

theorem l32 (e : Fin 500000) (z : Fin 1) (k : Fin 128) : lidx_main_v32 (ix2 e z) k = ix2 e k := by
  funext a; match a with | ⟨0, _⟩ => rfl | ⟨1, _⟩ => rfl
theorem w32 (e : Fin 500000) (z : Fin 1) (k : Fin 128) : idx_main_v31 (ridx_main_v32 (ix2 e z) k) = ix2 (0 : Fin 1) k := by
  funext a
  match a with
  | ⟨0, _⟩ => exact Fin.ext (by have := z.isLt; show z.val = 0; omega)
  | ⟨1, _⟩ => rfl
theorem b34 (e : Fin 500000) (z : Fin 1) : idx_main_v33 (idx_main_v34 (ix2 e z)) = ix1 (0 : Fin 1) := by
  funext a; match a with | ⟨0, _⟩ => rfl

/-- The output unit for edge `e`, over the second layer's units. -/
theorem layer3 (e : Fin 500000) (z : Fin 1) :
    val_main_v35 (F := Ideal) x0 x1 x2 x3 x4 x5 x6 x7 x8 (ix2 e z)
      = outUnit (fun k => val_main_v30 (F := Ideal) x0 x1 x2 x3 x4 x5 x6 (ix2 e k)) (fun k => x7 (ix2 (0 : Fin 1) k))
          (x8 (ix1 (0 : Fin 1))) := by
  rw [val_main_v35_apply, val_main_v32_apply, val_main_v34_apply, val_main_v33_apply]
  simp only [l32, val_main_v31_apply, w32, b34]
  rfl

/-- THE REFERENCE'S RESULT is the table of scores. -/
theorem ref_scores :
    val_main_v35 (F := Ideal) x0 x1 x2 x3 x4 x5 x6 x7 x8 = scores x0 x1 x2 x3 x4 x5 x6 x7 x8 := by
  funext i
  obtain ⟨e, z, rfl⟩ : ∃ (e : Fin 500000) (z : Fin 1), i = ix2 e z := ⟨i 0, i 1, eq_ix2 i⟩
  rw [layer3]
  unfold scores mlp
  simp only [layer2, layer1]

end Cert.ReferenceIdeal.RefValue

end
-- ==== Proof.PreRange.lean ====
/-
  The precondition read back: every source and destination index lies in [-100000, 100000).

  The stated precondition is a conjunction of `jnp.all`s; its last two say, of every entry `w` of the source vector
  and of the destination vector, that `-100000 ≤ w` and `w < 100000` as signed words — the indices numpy accepts for a
  table of 100000 rows. The finiteness conjuncts before them are not needed: both programs add and multiply the same
  extended reals in orders that differ only by commuting and regrouping sums.
-/
import proofs.«404299_j76605036691741_3_alg».proof.Proof.Gen.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

instance : Subsingleton S_.Idx := ⟨fun a b => funext fun d => d.elim0⟩

/-- From the precondition: each entry of the two index vectors is at least `-100000` (the word `4294867296`) and below
    `100000`, compared signed. -/
theorem index_ranges (a0 : FVec Ideal S100000x128 .f32) (a1 a2 : IVec S500000 32) (a3 : FVec Ideal S128x256 .f32)
    (a4 : FVec Ideal S128 .f32) (a5 : FVec Ideal S128x128 .f32) (a6 : FVec Ideal S128 .f32) (a7 : FVec Ideal S1x128 .f32)
    (a8 : FVec Ideal S1 .f32) (h : fn (F := Ideal) a0 a1 a2 a3 a4 a5 a6 a7 a8 = fun _ => 1#1) :
    (∀ i : S500000.Idx, IntOp.cmpi .sge (a1 i) 4294867296#32 = 1#1 ∧ IntOp.cmpi .slt (a1 i) 100000#32 = 1#1)
    ∧ (∀ i : S500000.Idx, IntOp.cmpi .sge (a2 i) 4294867296#32 = 1#1 ∧ IntOp.cmpi .slt (a2 i) 100000#32 = 1#1) := by
  have e := congrFun h ix0
  unfold fn fn_part1 fn_part2 at e
  dsimp only at e
  obtain ⟨e1, e46⟩ := IntOp.andi_eq_one.1 e
  obtain ⟨-, e39⟩ := IntOp.andi_eq_one.1 e1
  refine ⟨fun i => ?_, fun i => ?_⟩
  · exact IntOp.andi_eq_one.1 (Host.reduce_andi_all _ _ _ _ ix0 e39 i)
  · exact IntOp.andi_eq_one.1 (Host.reduce_andi_all _ _ _ _ ix0 e46 i)

end Cert.Pre_finite_inputs.Range

end
-- ==== Proof.IndexWords.lean ====
/-
  Index words: an index in [-100000, 100000), wrapped as numpy wraps it, is a row of the table.

  A 32-bit word read signed: `4294867296` is `-100000`. If `-100000 ≤ w < 100000` then either `w` is negative and
  `w + 100000` (which does not overflow) lies in [0, 100000), or `w` already does.
-/
import proofs.«404299_j76605036691741_3_alg».proof.Proof.Spec
import Idealize.ShloMosaic.Lib.Affine

namespace Cert.EdgeMlp

open Idealize.ShloMosaic

theorem toInt_negN : (4294867296#32 : BitVec 32).toInt = -100000 := by decide
theorem toInt_N : (100000#32 : BitVec 32).toInt = 100000 := by decide
theorem toInt_top : (99999#32 : BitVec 32).toInt = 99999 := by decide
theorem toInt_zero32 : (0#32 : BitVec 32).toInt = 0 := by decide

/-- A small nonnegative integer is its own balanced residue modulo 2³². -/
theorem bmod_small (x : Int) (h0 : 0 ≤ x) (h1 : x < 100000) : x.bmod (2 ^ 32) = x := by
  unfold Int.bmod
  dsimp only
  split <;> omega

/-- An index word in [-100000, 100000), wrapped, lies in [0, 99999]. -/
theorem wrapIdx_range (w : BitVec 32) (hlo : IntOp.cmpi .sge w 4294867296#32 = 1#1) (hhi : IntOp.cmpi .slt w 100000#32 = 1#1) :
    0 ≤ (wrapIdx w).toInt ∧ (wrapIdx w).toInt ≤ 99999 := by
  rw [IntOp.cmpi_sge, toInt_negN] at hlo
  rw [IntOp.cmpi_slt, toInt_N] at hhi
  unfold wrapIdx Scalar.select
  split
  · rename_i hneg
    have hneg' : w.toInt < (0#32 : BitVec 32).toInt := IntOp.cmpi_slt.1 hneg
    rw [toInt_zero32] at hneg'
    unfold IntOp.addi
    rw [BitVec.toInt_add, toInt_N, bmod_small _ (by omega) (by omega)]
    omega
  · rename_i hneg
    have hneg' : ¬ w.toInt < (0#32 : BitVec 32).toInt := fun h => hneg (IntOp.cmpi_slt.2 h)
    rw [toInt_zero32] at hneg'
    omega

/-- So the take's two tests of the wrapped index — at least `0`, at most `99999`, signed — both say yes. -/
theorem wrapIdx_inside (w : BitVec 32) (hlo : IntOp.cmpi .sge w 4294867296#32 = 1#1) (hhi : IntOp.cmpi .slt w 100000#32 = 1#1) :
    IntOp.andi (IntOp.cmpi .sge (wrapIdx w) 0#32) (IntOp.cmpi .sle (wrapIdx w) 99999#32) = 1#1 := by
  obtain ⟨h0, h1⟩ := wrapIdx_range w hlo hhi
  refine IntOp.andi_eq_one.2 ⟨IntOp.cmpi_sge.2 ?_, IntOp.cmpi_sle.2 ?_⟩
  · rw [toInt_zero32]; exact h0
  · rw [toInt_top]; exact h1

end Cert.EdgeMlp
-- ==== Proof.KernelHost.lean ====
/-
  What the pallas_call finds in its operand arrays.

  Before the call the host stacks the two index vectors, takes the rows of the node table at the stacked indices
  (`jnp.take`: each index wrapped as numpy wraps it, the row replaced by a fill pattern where the wrapped index falls
  outside the table), splits the taken rows back into the source half and the destination half, transposes the three
  weight matrices and views the bias vectors as one-row matrices. Where every index lies in [-100000, 100000) the
  wrapped index is inside the table, no row is filled, and the taken row is the table's row `nodeRow` names.
-/
import proofs.«404299_j76605036691741_3_alg».proof.Proof.Gen.KernelIdeal.Frame
import proofs.«404299_j76605036691741_3_alg».proof.Proof.Spec
import proofs.«404299_j76605036691741_3_alg».proof.Proof.IndexWords
import proofs.«404299_j76605036691741_3_alg».proof.Proof.LibTakeRows
import Idealize.ShloMosaic.Lib.StableHlo.Run
import Idealize.ShloMosaic.Lib.ValueLayout
import Idealize.ShloMosaic.Lib.Pipeline.Value
import Idealize.ShloMosaic.Lib.Affine
import Idealize.ShloMosaic.PureOps.Reduce

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx Cert.EdgeMlp

/-! ## The host's operations as terms -/

section Terms
variable {F : FTy → Type} [FloatOps F]

/-- The start-index column of the take: each index wrapped (a negative one has 100000 added), as a column. -/
def takeStart (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 100000#32))) idx)

/-- Whether a wrapped index is inside the table: `0 ≤ i` and `i ≤ 99999`, signed. -/
def takeInside (st : IVec S1000000x1 32) : IVec S1000000x1 1 :=
  andi (cmpi .sge st (broadcastInDim S1000000x1 ![] bcast_S_S1000000x1 (constantI S_ 32 0#32)))
    (cmpi .sle st (broadcastInDim S1000000x1 ![0, 1] bcast_S1x1_S1000000x1_0_1
      (broadcastInDim S1x1 ![1] bcast_S1_S1x1_1 (constantI S1 32 99999#32))))

/-- `jnp.take` of the node table's rows at a vector of a million indices, given its row mask: the gathered row
    where the mask is set, the fill pattern elsewhere. (The mask the host computes is the conjunction, along the unit axis,
    of `takeInside` of the start indices; it is a parameter here, and `V_src` / `V_dst` say what is known of it.) -/
def takeRows (mask : IVec S1000000 1) (h : FVec F S100000x128 .f32) (idx : IVec S1000000 32) : FVec F S1000000x128 .f32 :=
  select (broadcastInDim S1000000x128 ![0] bcast_S1000000_S1000000x128_0 mask)
    (Host.gather gather_S100000x128_S1000000x1_S1000000x128_1_0_n_n_0_1_1128 h (takeStart idx))
    (broadcastInDim S1000000x128 ![] bcast_S_S1000000x128 (constant S_ .f32 0x7FC00000#32))

/-- The two index vectors stacked: sources first, then destinations. -/
def bothIdx (a b : IVec S500000 32) : IVec S1000000 32 :=
  concatenate S1000000 0 [⟨S500000, a⟩, ⟨S500000, b⟩] concatenates_S500000_S500000_S1000000_d0

/-- The first half of the taken rows: the source rows, edge by edge. -/
def srcRows (mask : IVec S1000000 1) (h : FVec F S100000x128 .f32) (a b : IVec S500000 32) : FVec F S500000x128 .f32 :=
  shapeCast S500000x128 (extractStridedSlice S1x500000x128 ![0, 0, 0]
    (shapeCast S2x500000x128 (takeRows mask h (bothIdx a b)) shapeCasts_S1000000x128_S2x500000x128)
    slices_S2x500000x128_S1x500000x128_0_0_0) shapeCasts_S1x500000x128_S500000x128

/-- The second half: the destination rows. -/
def dstRows (mask : IVec S1000000 1) (h : FVec F S100000x128 .f32) (a b : IVec S500000 32) : FVec F S500000x128 .f32 :=
  shapeCast S500000x128 (extractStridedSlice S1x500000x128 ![1, 0, 0]
    (shapeCast S2x500000x128 (takeRows mask h (bothIdx a b)) shapeCasts_S1000000x128_S2x500000x128)
    slices_S2x500000x128_S1x500000x128_1_0_0) shapeCasts_S1x500000x128_S500000x128

end Terms

/-- Contents carried to a buffer's own type and back are the contents. -/
theorem ofBuf_toBuf {Val : EltTy → Type} {T : BufTy} (x : TRef sig T) (v : T.Contents Val) : x.ofBuf (x.toBuf v) = v := by
  obtain ⟨r, ty_eq, h1, h2⟩ := x
  subst ty_eq
  rfl

/-! ## The stacked indices and the start indices, read at an index -/

/-- Below 500000 the stacked vector is the source vector … -/
theorem bothIdx_lo (a b : IVec S500000 32) (r : Fin 1000000) (hr : r.val < 500000) :
    bothIdx a b (ix1 r) = a (ix1 ⟨r.val, hr⟩) := by
  unfold bothIdx
  exact concatenate_pair_apply_left (0 : Fin 1) a b concatenates_S500000_S500000_S1000000_d0 (ix1 r) rfl (ix1 ⟨r.val, hr⟩)
    (fun ax => by match ax with | ⟨0, _⟩ => rfl)

/-- … and from 500000 on the destination vector. -/
theorem bothIdx_hi (a b : IVec S500000 32) (r : Fin 1000000) (hr : 500000 ≤ r.val) :
    bothIdx a b (ix1 r) = b (ix1 ⟨r.val - 500000, by have := r.isLt; omega⟩) := by
  unfold bothIdx
  exact concatenate_pair_apply_right (0 : Fin 1) a b concatenates_S500000_S500000_S1000000_d0 (ix1 r) rfl rfl
    (ix1 ⟨r.val - 500000, by have := r.isLt; omega⟩)
    (fun ax hax => by match ax with | ⟨0, _⟩ => exact absurd (Fin.ext rfl) hax)
    (by show r.val - 500000 + 500000 = r.val; omega)

/-- If both index vectors lie in [-100000, 100000), so does the stacked one. -/
theorem bothIdx_range (a b : IVec S500000 32)
    (ha : ∀ i : S500000.Idx, IntOp.cmpi .sge (a i) 4294867296#32 = 1#1 ∧ IntOp.cmpi .slt (a i) 100000#32 = 1#1)
    (hb : ∀ i : S500000.Idx, IntOp.cmpi .sge (b i) 4294867296#32 = 1#1 ∧ IntOp.cmpi .slt (b i) 100000#32 = 1#1)
    (i : S1000000.Idx) :
    IntOp.cmpi .sge (bothIdx a b i) 4294867296#32 = 1#1 ∧ IntOp.cmpi .slt (bothIdx a b i) 100000#32 = 1#1 := by
  obtain ⟨r, rfl⟩ : ∃ r : Fin 1000000, i = ix1 r := ⟨i 0, eq_ix1 i⟩
  by_cases hr : r.val < 500000
  · rw [bothIdx_lo a b r hr]; exact ha _
  · rw [bothIdx_hi a b r (by omega)]; exact hb _

/-- The start index of row `r` is the wrapped index word. -/
theorem takeStart_apply (idx : IVec S1000000 32) (r : Fin 1000000) (z : Fin 1) :
    takeStart idx (ix2 r z) = wrapIdx (idx (ix1 r)) := by
  unfold takeStart
  rw [broadcastInDim_apply _ bcast_S1000000_S1000000x1_0 _ (ix2 r z) (ix1 r) (fun ax => by
    match ax with
    | ⟨0, _⟩ => show r.val = if (1000000 : Nat) = 1 then 0 else r.val; rw [if_neg (by decide)])]
  rfl

/-- The inside test at an entry of the start-index column. -/
theorem takeInside_apply (st : IVec S1000000x1 32) (i : S1000000x1.Idx) :
    takeInside st i = IntOp.andi (IntOp.cmpi .sge (st i) 0#32) (IntOp.cmpi .sle (st i) 99999#32) := rfl

/-- A conjunction of ones, from one, is one. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_ones f hf l

/-- With every index in [-100000, 100000), every wrapped index is inside the table. -/
theorem takeInside_one (idx : IVec S1000000 32)
    (hin : ∀ i : S1000000.Idx, IntOp.cmpi .sge (idx i) 4294867296#32 = 1#1 ∧ IntOp.cmpi .slt (idx i) 100000#32 = 1#1)
    (i : S1000000x1.Idx) : takeInside (takeStart idx) i = 1#1 := by
  obtain ⟨r, z, rfl⟩ : ∃ (r : Fin 1000000) (z : Fin 1), i = ix2 r z := ⟨i 0, i 1, eq_ix2 i⟩
  rw [takeInside_apply, takeStart_apply]
  exact wrapIdx_inside _ (hin (ix1 r)).1 (hin (ix1 r)).2

/-- So the conjunction of the inside tests along the unit axis, from `true`, is one at every row. -/
theorem mask_one (idx : IVec S1000000 32)
    (hin : ∀ i : S1000000.Idx, IntOp.cmpi .sge (idx i) 4294867296#32 = 1#1 ∧ IntOp.cmpi .slt (idx i) 100000#32 = 1#1)
    (j : S1000000.Idx) :
    Host.reduce IntOp.andi (takeInside (takeStart idx)) (constantI S_ 1 1#1) reducesTo_S1000000x1_S1000000_d1 h_S_ j = 1#1 := by
  rw [Host.reduce_eq_foldl]
  exact foldl_andi_ones _ (takeInside_one idx hin) _

/-- The same with the inside tests and the start indices written out, as the host's operations print them. -/
theorem mask_one_printed (idx : IVec S1000000 32)
    (hin : ∀ i : S1000000.Idx, IntOp.cmpi .sge (idx i) 4294867296#32 = 1#1 ∧ IntOp.cmpi .slt (idx i) 100000#32 = 1#1)
    (j : S1000000.Idx) :
    Host.reduce IntOp.andi
      (andi
        (cmpi .sge
          (broadcastInDim S1000000x1 ![0] bcast_S1000000_S1000000x1_0
            (select (cmpi .slt idx (broadcastInDim S1000000 ![] bcast_S_S1000000 (constantI S_ 32 0#32)))
              (addi idx (broadcastInDim S1000000 ![] bcast_S_S1000000 (constantI S_ 32 100000#32))) idx))
          (broadcastInDim S1000000x1 ![] bcast_S_S1000000x1 (constantI S_ 32 0#32)))
        (cmpi .sle
          (broadcastInDim S1000000x1 ![0] bcast_S1000000_S1000000x1_0
            (select (cmpi .slt idx (broadcastInDim S1000000 ![] bcast_S_S1000000 (constantI S_ 32 0#32)))
              (addi idx (broadcastInDim S1000000 ![] bcast_S_S1000000 (constantI S_ 32 100000#32))) idx))
          (broadcastInDim S1000000x1 ![0, 1] bcast_S1x1_S1000000x1_0_1
            (broadcastInDim S1x1 ![1] bcast_S1_S1x1_1 (constantI S1 32 99999#32)))))
      (constantI S_ 1 1#1) reducesTo_S1000000x1_S1000000_d1 h_S_ j = 1#1 := by
  have h := mask_one idx hin j
  unfold takeInside takeStart at h
  exact h

/-! ## The taken rows read at an index -/

/-- Where the row mask is one, taken row `r` is the table's row the index word names. -/
theorem takeRows_apply (M : IVec S1000000 1) (hM1 : ∀ j, M j = 1#1) (h : FVec Ideal S100000x128 .f32) (idx : IVec S1000000 32)
    (r : Fin 1000000) (k : Fin 128) :
    takeRows (F := Ideal) M h idx (ix2 r k) = h (ix2 (nodeRow (idx (ix1 r))) k) := by
  unfold takeRows
  rw [select_apply, broadcastInDim_apply _ bcast_S1000000_S1000000x128_0 _ (ix2 r k) (ix1 r) (fun ax => by
      match ax with
      | ⟨0, _⟩ => show r.val = if (1000000 : Nat) = 1 then 0 else r.val; rw [if_neg (by decide)]),
    hM1, select_one, Cert.Lib.gather_rows_apply (by decide) _ rfl rfl rfl rfl rfl rfl rfl]
  refine congrArg h (congrArg (fun q => ix2 q k) (Fin.ext ?_))
  show min (takeStart idx (ix2 r 0)).toInt.toNat (100000 - 1) = min (wrapIdx (idx (ix1 r))).toInt.toNat (100000 - 1)
  rw [takeStart_apply]

/-- THE SOURCE ROWS: row `e` is the table's row the source index of edge `e` names. -/
theorem srcRows_apply (M : IVec S1000000 1) (hM1 : ∀ j, M j = 1#1) (h : FVec Ideal S100000x128 .f32) (a b : IVec S500000 32)
    (e : Fin 500000) (k : Fin 128) :
    srcRows (F := Ideal) M h a b (ix2 e k) = h (ix2 (nodeRow (a (ix1 e))) k) := by
  unfold srcRows
  rw [shapeCast_1ab_ab_apply,
    extractStridedSlice_apply ![0, 0, 0] _ slices_S2x500000x128_S1x500000x128_0_0_0 (ix3 (0 : Fin 1) e k) (ix3 (0 : Fin 2) e k)
      (fun ax => by
        match ax with
        | ⟨0, _⟩ => rfl
        | ⟨1, _⟩ => show e.val = 0 + e.val; omega
        | ⟨2, _⟩ => show k.val = 0 + k.val; omega),
    shapeCast_apply _ shapeCasts_S1000000x128_S2x500000x128 (ix3 (0 : Fin 2) e k) (ix2 (⟨e.val, by omega⟩ : Fin 1000000) k) (by
      rw [Shape.rowMajor_val_two, Shape.rowMajor_val_three]
      show e.val * 128 + k.val = (0 * 500000 + e.val) * 128 + k.val
      omega),
    takeRows_apply M hM1, bothIdx_lo a b _ e.isLt]

/-- THE DESTINATION ROWS: row `e` is the table's row the destination index of edge `e` names. -/
theorem dstRows_apply (M : IVec S1000000 1) (hM1 : ∀ j, M j = 1#1) (h : FVec Ideal S100000x128 .f32) (a b : IVec S500000 32)
    (e : Fin 500000) (k : Fin 128) :
    dstRows (F := Ideal) M h a b (ix2 e k) = h (ix2 (nodeRow (b (ix1 e))) k) := by
  unfold dstRows
  rw [shapeCast_1ab_ab_apply,
    extractStridedSlice_apply ![1, 0, 0] _ slices_S2x500000x128_S1x500000x128_1_0_0 (ix3 (0 : Fin 1) e k) (ix3 (1 : Fin 2) e k)
      (fun ax => by
        match ax with
        | ⟨0, _⟩ => rfl
        | ⟨1, _⟩ => show e.val = 0 + e.val; omega
        | ⟨2, _⟩ => show k.val = 0 + k.val; omega),
    shapeCast_apply _ shapeCasts_S1000000x128_S2x500000x128 (ix3 (1 : Fin 2) e k) (ix2 (⟨500000 + e.val, by omega⟩ : Fin 1000000) k) (by
      rw [Shape.rowMajor_val_two, Shape.rowMajor_val_three]
      show (500000 + e.val) * 128 + k.val = (1 * 500000 + e.val) * 128 + k.val
      omega),
    takeRows_apply M hM1, bothIdx_hi a b _ (by show 500000 ≤ 500000 + e.val; omega)]
  exact congrArg (fun q => h (ix2 (nodeRow (b (ix1 q))) k)) (Fin.ext (by show 500000 + e.val - 500000 = e.val; omega))

/-! ## The operand arrays at the call -/

variable (m : (ℓ : Loc nD τ sig) → Buf (Elt Ideal) ℓ)

/-- The take's row mask as the host computes it: the contents of its buffer at the call. -/
def maskAt (c : Dev nD) : IVec S1000000 1 :=
  (TRef.of main_call0_v12 : TRef sig ⟨S1000000, .i1⟩).ofBuf (V m c main_call0_v12)

set_option maxHeartbeats 1000000 in
/-- With both index vectors in [-100000, 100000) the row mask is one everywhere. -/
theorem maskAt_one (c : Dev nD)
    (ha : ∀ i : S500000.Idx, IntOp.cmpi .sge (m ((c : Thread nD τ).loc main_arg1) i) 4294867296#32 = 1#1
      ∧ IntOp.cmpi .slt (m ((c : Thread nD τ).loc main_arg1) i) 100000#32 = 1#1)
    (hb : ∀ i : S500000.Idx, IntOp.cmpi .sge (m ((c : Thread nD τ).loc main_arg2) i) 4294867296#32 = 1#1
      ∧ IntOp.cmpi .slt (m ((c : Thread nD τ).loc main_arg2) i) 100000#32 = 1#1)
    (j : S1000000.Idx) : maskAt m c j = 1#1 := by
  unfold maskAt
  dsimp only [Gen.V]
  simp only [Gen.hostOps0, Gen.hostOps0_1, Gen.hostOps0_2, List.flatten_cons, List.flatten_nil, List.append_nil,
    List.cons_append, List.nil_append]
  after_results_simp
  simp only [ofBuf_toBuf]
  exact mask_one_printed _ (fun i => bothIdx_range _ _ ha hb i) j

set_option maxHeartbeats 1000000 in
/-- Operand 0: the source rows, under the take's row mask `M`. -/
theorem V_src (c : Dev nD) (M : IVec S1000000 1) (hM : maskAt m c = M) :
    (V m c main_v4 : S500000x128.Idx → EReal)
      = (srcRows (F := Ideal) M (m ((c : Thread nD τ).loc main_arg0)) (m ((c : Thread nD τ).loc main_arg1))
          (m ((c : Thread nD τ).loc main_arg2)) : S500000x128.Idx → EReal) := by
  generalize hR : (srcRows (F := Ideal) M (m ((c : Thread nD τ).loc main_arg0)) (m ((c : Thread nD τ).loc main_arg1))
          (m ((c : Thread nD τ).loc main_arg2)) : S500000x128.Idx → EReal) = R
  unfold maskAt at hM
  dsimp only [Gen.V] at hM ⊢
  simp only [Gen.hostOps0, Gen.hostOps0_1, Gen.hostOps0_2, List.flatten_cons, List.flatten_nil, List.append_nil,
    List.cons_append, List.nil_append] at hM ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hM ⊢
  simp only [ofBuf_toBuf] at hM ⊢
  rw [hM, ← hR]
  unfold srcRows takeRows takeStart bothIdx
  rfl

set_option maxHeartbeats 1000000 in
/-- Operand 1: the destination rows, under the take's row mask `M`. -/
theorem V_dst (c : Dev nD) (M : IVec S1000000 1) (hM : maskAt m c = M) :
    (V m c main_v6 : S500000x128.Idx → EReal)
      = (dstRows (F := Ideal) M (m ((c : Thread nD τ).loc main_arg0)) (m ((c : Thread nD τ).loc main_arg1))
          (m ((c : Thread nD τ).loc main_arg2)) : S500000x128.Idx → EReal) := by
  generalize hR : (dstRows (F := Ideal) M (m ((c : Thread nD τ).loc main_arg0)) (m ((c : Thread nD τ).loc main_arg1))
          (m ((c : Thread nD τ).loc main_arg2)) : S500000x128.Idx → EReal) = R
  unfold maskAt at hM
  dsimp only [Gen.V] at hM ⊢
  simp only [Gen.hostOps0, Gen.hostOps0_1, Gen.hostOps0_2, List.flatten_cons, List.flatten_nil, List.append_nil,
    List.cons_append, List.nil_append] at hM ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hM ⊢
  simp only [ofBuf_toBuf] at hM ⊢
  rw [hM, ← hR]
  unfold dstRows takeRows takeStart bothIdx
  rfl

/-! ## The weight and bias operands -/

set_option maxHeartbeats 2000000 in
/-- Operand 2: `W1` transposed. -/
theorem V_w1 (c : Dev nD) : (V m c main_v7 : S256x128.Idx → EReal)
    = (transpose S256x128 [1, 0] (m ((c : Thread nD τ).loc main_arg3)) transposes_S128x256_S256x128_1_0 : S256x128.Idx → EReal) := by
  dsimp only [Gen.V]
  simp only [Gen.hostOps0, Gen.hostOps0_1, Gen.hostOps0_2, List.flatten_cons, List.flatten_nil, List.append_nil,
    List.cons_append, List.nil_append]
  after_results_simp

set_option maxHeartbeats 2000000 in
/-- Operand 4: `W2` transposed. -/
theorem V_w2 (c : Dev nD) : (V m c main_v8 : S128x128.Idx → EReal)
    = (transpose S128x128 [1, 0] (m ((c : Thread nD τ).loc main_arg5)) transposes_S128x128_S128x128_1_0 : S128x128.Idx → EReal) := by
  dsimp only [Gen.V]
  simp only [Gen.hostOps0, Gen.hostOps0_1, Gen.hostOps0_2, List.flatten_cons, List.flatten_nil, List.append_nil,
    List.cons_append, List.nil_append]
  after_results_simp

set_option maxHeartbeats 2000000 in
/-- Operand 6: `W3` transposed. -/
theorem V_w3 (c : Dev nD) : (V m c main_v9 : S128x1.Idx → EReal)
    = (transpose S128x1 [1, 0] (m ((c : Thread nD τ).loc main_arg7)) transposes_S1x128_S128x1_1_0 : S128x1.Idx → EReal) := by
  dsimp only [Gen.V]
  simp only [Gen.hostOps0, Gen.hostOps0_1, Gen.hostOps0_2, List.flatten_cons, List.flatten_nil, List.append_nil,
    List.cons_append, List.nil_append]
  after_results_simp

set_option maxHeartbeats 2000000 in
/-- Operand 3: `b1` as one row. -/
theorem V_b1 (c : Dev nD) : (V m c main_v10 : S1x128.Idx → EReal)
    = (shapeCast S1x128 (m ((c : Thread nD τ).loc main_arg4)) shapeCasts_S128_S1x128 : S1x128.Idx → EReal) := by
  dsimp only [Gen.V]
  simp only [Gen.hostOps0, Gen.hostOps0_1, Gen.hostOps0_2, List.flatten_cons, List.flatten_nil, List.append_nil,
    List.cons_append, List.nil_append]
  after_results_simp
  rfl

set_option maxHeartbeats 2000000 in
/-- Operand 5: `b2` as one row. -/
theorem V_b2 (c : Dev nD) : (V m c main_v11 : S1x128.Idx → EReal)
    = (shapeCast S1x128 (m ((c : Thread nD τ).loc main_arg6)) shapeCasts_S128_S1x128 : S1x128.Idx → EReal) := by
  dsimp only [Gen.V]
  simp only [Gen.hostOps0, Gen.hostOps0_1, Gen.hostOps0_2, List.flatten_cons, List.flatten_nil, List.append_nil,
    List.cons_append, List.nil_append]
  after_results_simp
  rfl

set_option maxHeartbeats 2000000 in
/-- Operand 7: `b3` as a one-by-one matrix. -/
theorem V_b3 (c : Dev nD) : (V m c main_v12 : S1x1.Idx → EReal)
    = (shapeCast S1x1 (m ((c : Thread nD τ).loc main_arg8)) shapeCasts_S1_S1x1 : S1x1.Idx → EReal) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.HostSide

end
-- ==== Proof.KernelPayload.lean ====
/-
  What the kernel body stores, one element at a time.

  The body loads a block of 5000 source rows and the matching block of destination rows, lays each pair of rows side
  by side (256 columns), multiplies by the pre-transposed `W1` (256 × 128), adds the bias row, cuts off at zero, then
  the same with the pre-transposed `W2` and finally the pre-transposed `W3` (128 × 1) and its bias. Each matrix
  product into a zero accumulator is a plain sum over the contracted axis at the extended reals, so row `p` of the
  stored block is `mlp` of rows `p` of the two loaded blocks.
-/
import proofs.«404299_j76605036691741_3_alg».proof.Proof.Gen.KernelIdeal.Skeleton
import proofs.«404299_j76605036691741_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.EdgeMlp

/-! ## The three matrix products as sums -/

theorem lhs1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product at (p, j): the sum over the 256 columns. -/
theorem matmul1_apply (A : FVec Ideal S5000x256 .f32) (B : FVec Ideal S256x128 .f32) (p : Fin 5000) (j : Fin 128) :
    matmul dot_S5000x256_S256x128_S5000x128_1_0_0_1_n_n (some .fp32) A B (constant (F := Ideal) S5000x128 .f32 0x00000000#32) (ix2 p j)
      = ∑ q : Fin 256, A (ix2 p q) * B (ix2 q j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun a => Fin.ext (by
    match a with
    | ⟨0, _⟩ => exact lhs1_0 _ _
    | ⟨1, _⟩ => exact (lhs1_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun a => Fin.ext (by
    match a with
    | ⟨0, _⟩ => exact (rhs1_0 _ _).trans hk
    | ⟨1, _⟩ => exact rhs1_1 _ _)
  rw [el, er]

theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product at (p, j): the sum over the 128 hidden units. -/
theorem matmul2_apply (A : FVec Ideal S5000x128 .f32) (B : FVec Ideal S128x128 .f32) (p : Fin 5000) (j : Fin 128) :
    matmul dot_S5000x128_S128x128_S5000x128_1_0_0_1_n_n (some .fp32) A B (constant (F := Ideal) S5000x128 .f32 0x00000000#32) (ix2 p j)
      = ∑ k : Fin 128, A (ix2 p k) * B (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs2_0 _ _).trans hk
    | ⟨1, _⟩ => exact rhs2_1 _ _)
  rw [el, er]

theorem lhs3_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs3_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs3_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs3_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The third product at (p, 0): the sum over the 128 hidden units. -/
theorem matmul3_apply (A : FVec Ideal S5000x128 .f32) (B : FVec Ideal S128x1 .f32) (p : Fin 5000) (z : Fin 1) :
    matmul dot_S5000x128_S128x1_S5000x1_1_0_0_1_n_n (some .fp32) A B (constant (F := Ideal) S5000x1 .f32 0x00000000#32) (ix2 p z)
      = ∑ k : Fin 128, A (ix2 p k) * B (ix2 k z) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p z) ((contrEquiv1 dot_S5000x128_S128x1_S5000x1_1_0_0_1_n_n 128 rfl rfl).symm k) = ix2 p k := funext fun a => Fin.ext (by
    match a with
    | ⟨0, _⟩ => exact lhs3_0 _ _
    | ⟨1, _⟩ => exact (lhs3_1 _ _).trans hk)
  have er : dot_S5000x128_S128x1_S5000x1_1_0_0_1_n_n.rhsIdx (ix2 p z) ((contrEquiv1 dot_S5000x128_S128x1_S5000x1_1_0_0_1_n_n 128 rfl rfl).symm k) = ix2 k z := funext fun a => Fin.ext (by
    match a with
    | ⟨0, _⟩ => exact (rhs3_0 _ _).trans hk
    | ⟨1, _⟩ => exact rhs3_1 _ _)
  rw [el, er]

/-! ## The two rows side by side -/

/-- Column `k` of the concatenation is column `k` of the source block … -/
theorem cat_lo (A B : FVec Ideal S5000x128 .f32) (p : Fin 5000) (k : Fin 128) :
    concatenate S5000x256 1 [⟨S5000x128, A⟩, ⟨S5000x128, B⟩] concatenates_S5000x128_S5000x128_S5000x256_d1 (ix2 p (lo k))
      = A (ix2 p k) :=
  concatenate_pair_apply_left (1 : Fin 2) A B concatenates_S5000x128_S5000x128_S5000x256_d1 (ix2 p (lo k)) rfl (ix2 p k)
    (fun b => by match b with | ⟨0, _⟩ => rfl | ⟨1, _⟩ => rfl)

/-- … and column `128 + k` is column `k` of the destination block. -/
theorem cat_hi (A B : FVec Ideal S5000x128 .f32) (p : Fin 5000) (k : Fin 128) :
    concatenate S5000x256 1 [⟨S5000x128, A⟩, ⟨S5000x128, B⟩] concatenates_S5000x128_S5000x128_S5000x256_d1 (ix2 p (hi k))
      = B (ix2 p k) :=
  concatenate_pair_apply_right (1 : Fin 2) A B concatenates_S5000x128_S5000x128_S5000x256_d1 (ix2 p (hi k)) rfl rfl (ix2 p k)
    (fun b hb => by
      match b with
      | ⟨0, _⟩ => rfl
      | ⟨1, _⟩ => exact absurd (Fin.ext rfl) hb)
    (by show k.val + 128 = 128 + k.val; omega)

/-! ## The three layers of the body, one element each -/

/-- First layer: product of the side-by-side rows with the transposed weights, bias row, cut off at zero. -/
theorem body_layer1 (A B : FVec Ideal S5000x128 .f32) (W : FVec Ideal S256x128 .f32) (bias : FVec Ideal S1x128 .f32)
    (p : Fin 5000) (j : Fin 128) :
    maximumf (addf (matmul dot_S5000x256_S256x128_S5000x128_1_0_0_1_n_n (some .fp32)
        (concatenate S5000x256 1 [⟨S5000x128, A⟩, ⟨S5000x128, B⟩] concatenates_S5000x128_S5000x128_S5000x256_d1) W
        (constant (F := Ideal) S5000x128 .f32 0x00000000#32)) (broadcastTo S5000x128 bias broadcasts_S1x128_S5000x128))
      (broadcast S5000x128 (Scalar.ofBits (F := Ideal) .f32 0x00000000#32)) (ix2 p j)
      = hidden1 (fun k => A (ix2 p k)) (fun k => B (ix2 p k)) (fun q => W (ix2 q j)) (bias (ix2 (0 : Fin 1) j)) := by
  rw [maximumf_apply, addf_apply, matmul1_apply, broadcastTo_1b_ab_apply]
  exact hidden1_of_concat _ _
    (fun q => concatenate S5000x256 1 [⟨S5000x128, A⟩, ⟨S5000x128, B⟩] concatenates_S5000x128_S5000x128_S5000x256_d1 (ix2 p q))
    (fun q => W (ix2 q j)) _ (cat_lo A B p) (cat_hi A B p)

/-- Second layer. -/
theorem body_layer2 (X : FVec Ideal S5000x128 .f32) (W : FVec Ideal S128x128 .f32) (bias : FVec Ideal S1x128 .f32)
    (p : Fin 5000) (j : Fin 128) :
    maximumf (addf (matmul dot_S5000x128_S128x128_S5000x128_1_0_0_1_n_n (some .fp32) X W
        (constant (F := Ideal) S5000x128 .f32 0x00000000#32)) (broadcastTo S5000x128 bias broadcasts_S1x128_S5000x128))
      (broadcast S5000x128 (Scalar.ofBits (F := Ideal) .f32 0x00000000#32)) (ix2 p j)
      = hidden2 (fun k => X (ix2 p k)) (fun k => W (ix2 k j)) (bias (ix2 (0 : Fin 1) j)) := by
  rw [maximumf_apply, addf_apply, matmul2_apply, broadcastTo_1b_ab_apply]
  rfl

/-- Output layer. -/
theorem body_layer3 (X : FVec Ideal S5000x128 .f32) (W : FVec Ideal S128x1 .f32) (bias : FVec Ideal S1x1 .f32)
    (p : Fin 5000) (z : Fin 1) :
    addf (matmul dot_S5000x128_S128x1_S5000x1_1_0_0_1_n_n (some .fp32) X W
        (constant (F := Ideal) S5000x1 .f32 0x00000000#32)) (broadcastTo S5000x1 bias broadcasts_S1x1_S5000x1) (ix2 p z)
      = outUnit (fun k => X (ix2 p k)) (fun k => W (ix2 k z)) (bias (ix2 (0 : Fin 1) z)) := by
  rw [addf_apply, matmul3_apply, broadcastTo_1b_ab_apply]
  rfl

/-! ## The stored block -/

variable (x0 x1 : Vec Ideal S5000x128 .f32) (x2 : Vec Ideal S256x128 .f32) (x3 : Vec Ideal S1x128 .f32)
  (x4 : Vec Ideal S128x128 .f32) (x5 : Vec Ideal S1x128 .f32) (x6 : Vec Ideal S128x1 .f32) (x7 : Vec Ideal S1x1 .f32)

/-- ROW `p` OF THE STORED BLOCK is the perceptron of rows `p` of the two loaded row blocks, under the loaded
    (pre-transposed) weights and bias rows. -/
theorem pay_apply (p : Fin 5000) (z : Fin 1) :
    k0_pay1 (F := Ideal) x0 x1 x2 x3 x4 x5 x6 x7 (ix2 p z)
      = mlp (fun k => x0 (ix2 p k)) (fun k => x1 (ix2 p k)) (fun j q => x2 (ix2 q j)) (fun j => x3 (ix2 (0 : Fin 1) j))
          (fun j k => x4 (ix2 k j)) (fun j => x5 (ix2 (0 : Fin 1) j)) (fun k => x6 (ix2 k z)) (x7 (ix2 (0 : Fin 1) z)) := by
  unfold k0_pay1
  simp only [shapeCast_self]
  rw [body_layer3]
  unfold mlp
  simp only [body_layer2, body_layer1, shapeCast_self]

end Cert.KernelIdeal.Payload

end
-- ==== Proof.KernelValue.lean ====
/-
  From blocks to the array: the kernel's result is the table of scores.

  The grid has 100 points; point `t` stages rows 5000·t … 5000·t + 4999 of the source rows and of the destination
  rows, the whole of each weight matrix and bias row, and writes back rows 5000·t … of the result. Row `p` of what
  point `t` writes back is the perceptron of rows `p` of the two staged blocks, which are rows 5000·t + p of the
  operand arrays, which are the node table's rows named by edge 5000·t + p's source and destination index. The 100
  blocks tile the 500000 rows, so the result array is the table of scores.
-/
import proofs.«404299_j76605036691741_3_alg».proof.Proof.Gen.KernelIdeal.Value
import proofs.«404299_j76605036691741_3_alg».proof.Proof.KernelHost
import proofs.«404299_j76605036691741_3_alg».proof.Proof.KernelPayload

set_option maxRecDepth 16384

noncomputable section

namespace Cert.KernelIdeal.RunValue

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 100 grid points: the two row windows move with the output window, whose
    block index is the point; every weight and bias window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A grid point is below 100. -/
theorem point_lt (t : Fin cfg0.N) : t.val < 100 := by
  have h := t.isLt
  have hN : cfg0.N = 100 := N_0
  omega

/-- The edge whose score is row `p` of point `t`'s block. -/
def edgeOf (t : Fin cfg0.N) (p : Fin 5000) : Fin 500000 :=
  ⟨t.val * 5000 + p.val, by have := point_lt t; have := p.isLt; omega⟩

/-! ## The staged blocks read through the windows -/

section Blocks
variable (c : Dev nD) (t : Fin cfg0.N)

/-- Where window 0's block at point `t` sits in its array. -/
theorem emb0 (p : Fin 5000) (k : Fin 128) : ((cfg0.win 0).blk t).view.emb (ix2 p k) = ix2 (edgeOf t p) k := by
  obtain ⟨f00, f01, -⟩ := idx_facts t
  funext a; apply Fin.ext
  match a with
  | ⟨0, _⟩ => show win0_0.index t (0 : Fin 2) * 5000 + 1 * p.val = t.val * 5000 + p.val; rw [f00]; omega
  | ⟨1, _⟩ => show win0_0.index t (1 : Fin 2) * 128 + 1 * k.val = k.val; rw [f01]; omega

/-- Any array read through that block. -/
theorem read0 (X : S500000x128.Idx → EReal) (p : Fin 5000) (k : Fin 128) :
    ((cfg0.win 0).blk t).view.read (Elt Ideal) X (ix2 p k) = X (ix2 (edgeOf t p) k) := by
  rw [View.read_apply, emb0]
  rfl

theorem blk0 (p : Fin 5000) (k : Fin 128) : iblk m c 0 t (ix2 p k) = V m c main_v4 (ix2 (edgeOf t p) k) := by
  show ((cfg0.win 0).blk t).view.read (Elt Ideal) (V m c (Pipeline.arrRef spec0 0)) (ix2 p k)
    = V m c (Pipeline.arrRef spec0 0) (ix2 (edgeOf t p) k)
  exact read0 t _ p k

/-- Where window 1's block at point `t` sits in its array. -/
theorem emb1 (p : Fin 5000) (k : Fin 128) : ((cfg0.win 1).blk t).view.emb (ix2 p k) = ix2 (edgeOf t p) k := by
  obtain ⟨-, -, f10, f11, -⟩ := idx_facts t
  funext a; apply Fin.ext
  match a with
  | ⟨0, _⟩ => show win0_1.index t (0 : Fin 2) * 5000 + 1 * p.val = t.val * 5000 + p.val; rw [f10]; omega
  | ⟨1, _⟩ => show win0_1.index t (1 : Fin 2) * 128 + 1 * k.val = k.val; rw [f11]; omega

/-- Any array read through that block. -/
theorem read1 (X : S500000x128.Idx → EReal) (p : Fin 5000) (k : Fin 128) :
    ((cfg0.win 1).blk t).view.read (Elt Ideal) X (ix2 p k) = X (ix2 (edgeOf t p) k) := by
  rw [View.read_apply, emb1]
  rfl

theorem blk1 (p : Fin 5000) (k : Fin 128) : iblk m c 1 t (ix2 p k) = V m c main_v6 (ix2 (edgeOf t p) k) := by
  show ((cfg0.win 1).blk t).view.read (Elt Ideal) (V m c (Pipeline.arrRef spec0 1)) (ix2 p k)
    = V m c (Pipeline.arrRef spec0 1) (ix2 (edgeOf t p) k)
  exact read1 t _ p k

/-- Where window 2's block at point `t` sits in its array. -/
theorem emb2 (q : Fin 256) (j : Fin 128) : ((cfg0.win 2).blk t).view.emb (ix2 q j) = ix2 q j := by
  obtain ⟨-, -, -, -, f20, f21, -⟩ := idx_facts t
  funext a; apply Fin.ext
  match a with
  | ⟨0, _⟩ => show win0_2.index t (0 : Fin 2) * 256 + 1 * q.val = q.val; rw [f20]; omega
  | ⟨1, _⟩ => show win0_2.index t (1 : Fin 2) * 128 + 1 * j.val = j.val; rw [f21]; omega

/-- Any array read through that block. -/
theorem read2 (X : S256x128.Idx → EReal) (q : Fin 256) (j : Fin 128) :
    ((cfg0.win 2).blk t).view.read (Elt Ideal) X (ix2 q j) = X (ix2 q j) := by
  rw [View.read_apply, emb2]
  rfl

theorem blk2 (q : Fin 256) (j : Fin 128) : iblk m c 2 t (ix2 q j) = V m c main_v7 (ix2 q j) := by
  show ((cfg0.win 2).blk t).view.read (Elt Ideal) (V m c (Pipeline.arrRef spec0 2)) (ix2 q j)
    = V m c (Pipeline.arrRef spec0 2) (ix2 q j)
  exact read2 t _ q j

/-- Where window 3's block at point `t` sits in its array. -/
theorem emb3 (z : Fin 1) (j : Fin 128) : ((cfg0.win 3).blk t).view.emb (ix2 z j) = ix2 z j := by
  obtain ⟨-, -, -, -, -, -, f30, f31, -⟩ := idx_facts t
  funext a; apply Fin.ext
  match a with
  | ⟨0, _⟩ => show win0_3.index t (0 : Fin 2) * 1 + 1 * z.val = z.val; rw [f30]; omega
  | ⟨1, _⟩ => show win0_3.index t (1 : Fin 2) * 128 + 1 * j.val = j.val; rw [f31]; omega

/-- Any array read through that block. -/
theorem read3 (X : S1x128.Idx → EReal) (z : Fin 1) (j : Fin 128) :
    ((cfg0.win 3).blk t).view.read (Elt Ideal) X (ix2 z j) = X (ix2 z j) := by
  rw [View.read_apply, emb3]
  rfl

theorem blk3 (z : Fin 1) (j : Fin 128) : iblk m c 3 t (ix2 z j) = V m c main_v10 (ix2 z j) := by
  show ((cfg0.win 3).blk t).view.read (Elt Ideal) (V m c (Pipeline.arrRef spec0 3)) (ix2 z j)
    = V m c (Pipeline.arrRef spec0 3) (ix2 z j)
  exact read3 t _ z j

/-- Where window 4's block at point `t` sits in its array. -/
theorem emb4 (k j : Fin 128) : ((cfg0.win 4).blk t).view.emb (ix2 k j) = ix2 k j := by
  obtain ⟨-, -, -, -, -, -, -, -, f40, f41, -⟩ := idx_facts t
  funext a; apply Fin.ext
  match a with
  | ⟨0, _⟩ => show win0_4.index t (0 : Fin 2) * 128 + 1 * k.val = k.val; rw [f40]; omega
  | ⟨1, _⟩ => show win0_4.index t (1 : Fin 2) * 128 + 1 * j.val = j.val; rw [f41]; omega

/-- Any array read through that block. -/
theorem read4 (X : S128x128.Idx → EReal) (k j : Fin 128) :
    ((cfg0.win 4).blk t).view.read (Elt Ideal) X (ix2 k j) = X (ix2 k j) := by
  rw [View.read_apply, emb4]
  rfl

theorem blk4 (k j : Fin 128) : iblk m c 4 t (ix2 k j) = V m c main_v8 (ix2 k j) := by
  show ((cfg0.win 4).blk t).view.read (Elt Ideal) (V m c (Pipeline.arrRef spec0 4)) (ix2 k j)
    = V m c (Pipeline.arrRef spec0 4) (ix2 k j)
  exact read4 t _ k j

/-- Where window 5's block at point `t` sits in its array. -/
theorem emb5 (z : Fin 1) (j : Fin 128) : ((cfg0.win 5).blk t).view.emb (ix2 z j) = ix2 z j := by
  obtain ⟨-, -, -, -, -, -, -, -, -, -, f50, f51, -⟩ := idx_facts t
  funext a; apply Fin.ext
  match a with
  | ⟨0, _⟩ => show win0_5.index t (0 : Fin 2) * 1 + 1 * z.val = z.val; rw [f50]; omega
  | ⟨1, _⟩ => show win0_5.index t (1 : Fin 2) * 128 + 1 * j.val = j.val; rw [f51]; omega

/-- Any array read through that block. -/
theorem read5 (X : S1x128.Idx → EReal) (z : Fin 1) (j : Fin 128) :
    ((cfg0.win 5).blk t).view.read (Elt Ideal) X (ix2 z j) = X (ix2 z j) := by
  rw [View.read_apply, emb5]
  rfl

theorem blk5 (z : Fin 1) (j : Fin 128) : iblk m c 5 t (ix2 z j) = V m c main_v11 (ix2 z j) := by
  show ((cfg0.win 5).blk t).view.read (Elt Ideal) (V m c (Pipeline.arrRef spec0 5)) (ix2 z j)
    = V m c (Pipeline.arrRef spec0 5) (ix2 z j)
  exact read5 t _ z j

/-- Where window 6's block at point `t` sits in its array. -/
theorem emb6 (k : Fin 128) (z : Fin 1) : ((cfg0.win 6).blk t).view.emb (ix2 k z) = ix2 k z := by
  obtain ⟨-, -, -, -, -, -, -, -, -, -, -, -, f60, f61, -⟩ := idx_facts t
  funext a; apply Fin.ext
  match a with
  | ⟨0, _⟩ => show win0_6.index t (0 : Fin 2) * 128 + 1 * k.val = k.val; rw [f60]; omega
  | ⟨1, _⟩ => show win0_6.index t (1 : Fin 2) * 1 + 1 * z.val = z.val; rw [f61]; omega

/-- Any array read through that block. -/
theorem read6 (X : S128x1.Idx → EReal) (k : Fin 128) (z : Fin 1) :
    ((cfg0.win 6).blk t).view.read (Elt Ideal) X (ix2 k z) = X (ix2 k z) := by
  rw [View.read_apply, emb6]
  rfl

theorem blk6 (k : Fin 128) (z : Fin 1) : iblk m c 6 t (ix2 k z) = V m c main_v9 (ix2 k z) := by
  show ((cfg0.win 6).blk t).view.read (Elt Ideal) (V m c (Pipeline.arrRef spec0 6)) (ix2 k z)
    = V m c (Pipeline.arrRef spec0 6) (ix2 k z)
  exact read6 t _ k z

/-- Where window 7's block at point `t` sits in its array. -/
theorem emb7 (z z' : Fin 1) : ((cfg0.win 7).blk t).view.emb (ix2 z z') = ix2 z z' := by
  obtain ⟨-, -, -, -, -, -, -, -, -, -, -, -, -, -, f70, f71, -⟩ := idx_facts t
  funext a; apply Fin.ext
  match a with
  | ⟨0, _⟩ => show win0_7.index t (0 : Fin 2) * 1 + 1 * z.val = z.val; rw [f70]; omega
  | ⟨1, _⟩ => show win0_7.index t (1 : Fin 2) * 1 + 1 * z'.val = z'.val; rw [f71]; omega

/-- Any array read through that block. -/
theorem read7 (X : S1x1.Idx → EReal) (z z' : Fin 1) :
    ((cfg0.win 7).blk t).view.read (Elt Ideal) X (ix2 z z') = X (ix2 z z') := by
  rw [View.read_apply, emb7]
  rfl

theorem blk7 (z z' : Fin 1) : iblk m c 7 t (ix2 z z') = V m c main_v12 (ix2 z z') := by
  show ((cfg0.win 7).blk t).view.read (Elt Ideal) (V m c (Pipeline.arrRef spec0 7)) (ix2 z z')
    = V m c (Pipeline.arrRef spec0 7) (ix2 z z')
  exact read7 t _ z z'

/-- Row `p` of the output block is row `edgeOf t p` of the result array. -/
theorem out_emb (p : Fin 5000) (z : Fin 1) :
    ((cfg0.win 8).blk t).view.emb (ix2 p z) = ix2 (edgeOf t p) z := by
  obtain ⟨-, -, -, -, -, -, -, -, -, -, -, -, -, -, -, -, f80, f81⟩ := idx_facts t
  funext a; apply Fin.ext
  match a with
  | ⟨0, _⟩ => show win0_8.index t (0 : Fin 2) * 5000 + 1 * p.val = t.val * 5000 + p.val; rw [f80]; omega
  | ⟨1, _⟩ => show win0_8.index t (1 : Fin 2) * 1 + 1 * z.val = z.val; rw [f81]; omega

end Blocks

/-! ## What a point writes back -/

/-- `mlp` of equal arguments. -/
theorem mlp_congr {a a' b b' : Fin 128 → EReal} {W1 W1' : Fin 128 → Fin 256 → EReal} {b1 b1' : Fin 128 → EReal}
    {W2 W2' : Fin 128 → Fin 128 → EReal} {b2 b2' : Fin 128 → EReal} {W3 W3' : Fin 128 → EReal} {b3 b3' : EReal}
    (h0 : a = a') (h1 : b = b') (h2 : W1 = W1') (h3 : b1 = b1') (h4 : W2 = W2') (h5 : b2 = b2') (h6 : W3 = W3') (h7 : b3 = b3') :
    mlp a b W1 b1 W2 b2 W3 b3 = mlp a' b' W1' b1' W2' b2' W3' b3' := by
  subst h0 h1 h2 h3 h4 h5 h6 h7; rfl

/-- The table of scores of the launch contents on core `c`. -/
abbrev result (c : Dev nD) : S500000x1.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

section Entry
variable (c : Dev nD)
  (ha : ∀ i : S500000.Idx, IntOp.cmpi .sge (m ((c : Thread nD τ).loc main_arg1) i) 4294867296#32 = 1#1
    ∧ IntOp.cmpi .slt (m ((c : Thread nD τ).loc main_arg1) i) 100000#32 = 1#1)
  (hb : ∀ i : S500000.Idx, IntOp.cmpi .sge (m ((c : Thread nD τ).loc main_arg2) i) 4294867296#32 = 1#1
    ∧ IntOp.cmpi .slt (m ((c : Thread nD τ).loc main_arg2) i) 100000#32 = 1#1)

include ha hb in
/-- Entry `y` of what point `t` stores is the score of the edge that entry is in the result array. -/
theorem block_entry (t : Fin cfg0.N) (y : S5000x1.Idx) :
    k0_pay1 (F := Ideal) (iblk m c 0 t) (iblk m c 1 t) (iblk m c 2 t) (iblk m c 3 t) (iblk m c 4 t) (iblk m c 5 t)
        (iblk m c 6 t) (iblk m c 7 t) y
      = result m c (((cfg0.win 8).blk t).view.emb y) := by
  obtain ⟨p, z, rfl⟩ : ∃ (p : Fin 5000) (z : Fin 1), y = ix2 p z := ⟨y 0, y 1, eq_ix2 y⟩
  obtain rfl : z = 0 := Subsingleton.elim _ _
  have hM1 := HostSide.maskAt_one m c ha hb
  refine (Payload.pay_apply (iblk m c 0 t) (iblk m c 1 t) (iblk m c 2 t) (iblk m c 3 t) (iblk m c 4 t) (iblk m c 5 t)
    (iblk m c 6 t) (iblk m c 7 t) p 0).trans ?_
  rw [out_emb]
  refine mlp_congr (funext fun k => ?_) (funext fun k => ?_) (funext fun j => funext fun q => ?_) (funext fun j => ?_)
    (funext fun j => funext fun k => ?_) (funext fun j => ?_) (funext fun k => ?_) ?_
  · exact (blk0 m c t p k).trans ((congrFun (HostSide.V_src m c _ rfl) _).trans (HostSide.srcRows_apply _ hM1 _ _ _ _ _))
  · exact (blk1 m c t p k).trans ((congrFun (HostSide.V_dst m c _ rfl) _).trans (HostSide.dstRows_apply _ hM1 _ _ _ _ _))
  · exact (blk2 m c t q j).trans ((congrFun (HostSide.V_w1 m c) _).trans (transpose_ix2_apply _ _ q j))
  · exact (blk3 m c t 0 j).trans ((congrFun (HostSide.V_b1 m c) _).trans (shapeCast_a_1a_apply _ _ 0 j))
  · exact (blk4 m c t k j).trans ((congrFun (HostSide.V_w2 m c) _).trans (transpose_ix2_apply _ _ k j))
  · exact (blk5 m c t 0 j).trans ((congrFun (HostSide.V_b2 m c) _).trans (shapeCast_a_1a_apply _ _ 0 j))
  · exact (blk6 m c t k 0).trans ((congrFun (HostSide.V_w3 m c) _).trans (transpose_ix2_apply _ _ k 0))
  · exact (blk7 m c t 0 0).trans ((congrFun (HostSide.V_b3 m c) _).trans (shapeCast_a_1a_apply _ _ 0 0))

include ha hb in
/-- WHAT POINT `t` WRITES BACK is block `t` of the table of scores. -/
theorem flushed_eq (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S5000x128) hz, View.ld_unit_zero (S := S256x128) hz, View.ld_unit_zero (S := S1x128) hz,
    View.ld_unit_zero (S := S128x128) hz, View.ld_unit_zero (S := S128x1) hz, View.ld_unit_zero (S := S1x1) hz]
  have hP : k0_pay1 (F := Ideal) (iblk m c 0 t) (iblk m c 1 t) (iblk m c 2 t) (iblk m c 3 t) (iblk m c 4 t) (iblk m c 5 t)
      (iblk m c 6 t) (iblk m c 7 t) = fun y => result m c (((cfg0.win 8).blk t).view.emb y) :=
    funext (block_entry m c ha hb t)
  rw [hP]
  generalize result m c = G
  rfl

/-- An index of the result array is in point `t`'s block iff each coordinate is in the block's range on its axis. -/
theorem mem_blk (t : Fin cfg0.N) (i : S500000x1.Idx) :
    i ∈ ((cfg0.win 8).blk t).view.set ↔ ∀ a : Fin 2, win0_8.index t a * S5000x1.size a ≤ (i a).val ∧ (i a).val < win0_8.index t a * S5000x1.size a + S5000x1.size a := by
  show i ∈ ((View.whole main_v13).slice (win0_8.rect t)).set ↔ _
  rw [View.set_slice_whole, Rect.mem_set_unit]
  exact Iff.rfl

/-- The 100 blocks of 5000 rows tile the 500000 rows: row `r` is in the block of point `r / 5000`. -/
theorem cover (i : S500000x1.Idx) :
    ∃ t : Fin cfg0.N, (cfg0.win 8).flush t = true ∧ i ∈ ((cfg0.win 8).blk t).view.set := by
  have hi0 : (i 0).val < 500000 := idx2_lt0 i
  have hi1 : (i 1).val < 1 := idx2_lt1 i
  have hN : cfg0.N = 100 := N_0
  let t : Fin cfg0.N := ⟨(i 0).val / 5000, by omega⟩
  have ht : t.val = (i 0).val / 5000 := rfl
  refine ⟨t, flush0_8 t, ?_⟩
  rw [mem_blk]
  obtain ⟨-, -, -, -, -, -, -, -, -, -, -, -, -, -, -, -, f80, f81⟩ := idx_facts t
  intro a
  match a with
  | ⟨0, _⟩ =>
    show win0_8.index t (0 : Fin 2) * 5000 ≤ (i 0).val ∧ (i 0).val < win0_8.index t (0 : Fin 2) * 5000 + 5000
    rw [f80, ht]; omega
  | ⟨1, _⟩ =>
    show win0_8.index t (1 : Fin 2) * 1 ≤ (i 1).val ∧ (i 1).val < win0_8.index t (1 : Fin 2) * 1 + 1
    rw [f81]; omega

include ha hb in
/-- THE RESULT ARRAY after the run is the table of scores. -/
theorem final : (dats m 0 c).arrAt 8 cfg0.N = result m c :=
  (dats m 0 c).arrAt_eq_of_cover 8 (result m c) (fun t _ => flushed_eq m c ha hb t) cover

end Entry

/-- THE KERNEL'S RUN, with the result array named: where both index vectors lie in [-100000, 100000) on every core, every
    weakly fair execution ends with the result array at the table of scores and the arguments as launched. -/
theorem run
    (hin : ∀ c : Dev nD,
      (∀ i : S500000.Idx, IntOp.cmpi .sge (m ((c : Thread nD τ).loc main_arg1) i) 4294867296#32 = 1#1
        ∧ IntOp.cmpi .slt (m ((c : Thread nD τ).loc main_arg1) i) 100000#32 = 1#1)
      ∧ (∀ i : S500000.Idx, IntOp.cmpi .sge (m ((c : Thread nD τ).loc main_arg2) i) 4294867296#32 = 1#1
        ∧ IntOp.cmpi .slt (m ((c : Thread nD τ).loc main_arg2) i) 100000#32 = 1#1)) :
    θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hin c).1 (hin c).2), (h c).2⟩) (Value.run_blocks m ρ)

end Cert.KernelIdeal.RunValue

end
-- ==== Proof.lean ====
/-
  The edge scorer: a Pallas kernel against its jnp reference, over the extended reals.

  For each of 500000 edges both programs take the node-table rows named by the edge's source and destination index and
  run them through a three-layer perceptron (256 → 128 → 128 → 1, a maximum with zero after the first two layers). The
  kernel stacks the two index vectors, takes the rows with `jnp.take` (which fills a row with a pattern when its index,
  wrapped, falls outside the table), lays each pair of rows side by side and multiplies by the whole of `W1` transposed;
  the reference gathers with `h[src]`, `h[dst]` (which clamp) and multiplies the two rows by the two halves of `W1`
  separately. The stated domain — every index in [-100000, 100000), the indices numpy accepts for this table — is
  where the reference indexes inside the table; there no row is filled and both gathers read row `nodeRow`. A sum over
  256 columns is the sum over the first 128 plus the sum over the last 128 by commutativity and associativity alone, so
  the float inputs' finiteness is never used.

  Modules: Spec (the perceptron as mathematics), IndexWords (the index range, wrapped), RefValue (the reference's result),
  PreRange (the precondition read back), KernelPayload (one stored element), KernelHost (the operand arrays at the call),
  KernelValue (from blocks to the array, and the kernel's run). The frames of the two kernel programs are the generated
  ones; the reference's frame is its generated run with the result dropped; there is no idealization rewrite to preserve.
-/
import proofs.«404299_j76605036691741_3_alg».proof.Defs
import proofs.«404299_j76605036691741_3_alg».proof.Proof.Gen.Kernel
import proofs.«404299_j76605036691741_3_alg».proof.Proof.Gen.Kernel.Skeleton
import proofs.«404299_j76605036691741_3_alg».proof.Proof.Gen.Kernel.Launch
import proofs.«404299_j76605036691741_3_alg».proof.Proof.Gen.Kernel.Points
import proofs.«404299_j76605036691741_3_alg».proof.Proof.Gen.Kernel.Frame
import proofs.«404299_j76605036691741_3_alg».proof.Proof.Gen.KernelIdeal
import proofs.«404299_j76605036691741_3_alg».proof.Proof.Gen.KernelIdeal.Skeleton
import proofs.«404299_j76605036691741_3_alg».proof.Proof.Gen.KernelIdeal.Launch
import proofs.«404299_j76605036691741_3_alg».proof.Proof.Gen.KernelIdeal.Points
import proofs.«404299_j76605036691741_3_alg».proof.Proof.Gen.KernelIdeal.Frame
import proofs.«404299_j76605036691741_3_alg».proof.Proof.Gen.ReferenceIdeal
import proofs.«404299_j76605036691741_3_alg».proof.Proof.Gen.Pre_finite_inputs
import proofs.«404299_j76605036691741_3_alg».proof.Proof.Gen.KernelIdeal.Value
import proofs.«404299_j76605036691741_3_alg».proof.Proof.Gen.ReferenceIdeal.Run
import proofs.«404299_j76605036691741_3_alg».proof.Proof.Gen.ReferenceIdeal.Read
import proofs.«404299_j76605036691741_3_alg».proof.Proof.RefValue
import proofs.«404299_j76605036691741_3_alg».proof.Proof.PreRange
import proofs.«404299_j76605036691741_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the table of scores of their (agreeing) arguments. -/
theorem algebraic : Cert.algebraic_KernelIdeal_ReferenceIdeal := by
  intro m ρ m' ρ' hpre hagree
  refine ⟨fun c => Cert.KernelIdeal.RunValue.result m c, ?_, ?_⟩
  · exact Cert.KernelIdeal.RunValue.run m ρ
      (fun c => Cert.Pre_finite_inputs.Range.index_ranges _ _ _ _ _ _ _ _ _ (hpre c))
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v35_eq, Cert.ReferenceIdeal.RefValue.ref_scores,
      h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
